-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_

variable [Facts]

def fn_part1 {F : FTy → Type} [FloatOps F] (main_arg4 : FVec F S4096x1 .f32) (main_arg5 : FVec F S4096x64 .f32) (main_arg6 : FVec F S64x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  let main_v24 : FVec F S4096x64 .f32 := Host.absf main_arg5
  let main_cst_8 : FVec F S_ .f32 := constant S_ .f32 0x7F800000#32
  let main_v25 : FVec F S4096x64 .f32 := broadcastInDim S4096x64 ![] bcast_S_S4096x64 main_cst_8
  let main_v26 : IVec S4096x64 1 := cmpf .olt main_v24 main_v25
  let main_c_9 : IVec S_ 1 := constantI S_ 1 1#1
  let main_v27 : IVec S_ 1 := (fun x v => Host.reduce IntOp.andi x v reducesTo_S4096x64_S_d0_1 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  main_v33

def fn {F : FTy → Type} [FloatOps F] (main_arg0 : FVec F S64x512 .f32) (main_arg1 : FVec F S4096x512 .f32) (main_arg2 : FVec F S4096x512 .f32) (main_arg3 : FVec F S4096x4096 .f32) (main_arg4 : FVec F S4096x1 .f32) (main_arg5 : FVec F S4096x64 .f32) (main_arg6 : FVec F S64x4096 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S256x512 : Shape := ⟨2, ![256, 512]⟩
abbrev S256x4096 : Shape := ⟨2, ![256, 4096]⟩
abbrev S256x64 : Shape := ⟨2, ![256, 64]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S4096x512, .f32⟩
  | .hbm, ⟨3, _⟩ => ⟨S4096x4096, .f32⟩
  | .hbm, ⟨4, _⟩ => ⟨S4096x1, .f32⟩
  | .hbm, ⟨5, _⟩ => ⟨S4096x64, .f32⟩
  | .hbm, ⟨6, _⟩ => ⟨S64x4096, .f32⟩
  | .hbm, ⟨7, _⟩ => ⟨S64x512, .f32⟩
  | .hbm, ⟨8, _⟩ => ⟨S4096x512, .f32⟩
  | .hbm, ⟨9, _⟩ => ⟨S4096x512, .f32⟩
  | .local _ .vmem, ⟨0, _⟩ => ⟨S64x512, .f32⟩
  | .local _ .vmem, ⟨1, _⟩ => ⟨S4096x512, .f32⟩
  | .local _ .vmem, ⟨2, _⟩ => ⟨S64x4096, .f32⟩
  | .local _ .vmem, ⟨3, _⟩ => ⟨S64x512, .f32⟩
  | .local _ .vmem, ⟨4, _⟩ => ⟨S256x512, .f32⟩
  | .local _ .vmem, ⟨5, _⟩ => ⟨S256x512, .f32⟩
  | .local _ .vmem, ⟨6, _⟩ => ⟨S4096x512, .f32⟩
  | .local _ .vmem, ⟨7, _⟩ => ⟨S256x4096, .f32⟩
  | .local _ .vmem, ⟨8, _⟩ => ⟨S256x4096, .f32⟩
  | .local _ .vmem, ⟨9, _⟩ => ⟨S256x64, .f32⟩
  | .local _ .vmem, ⟨10, _⟩ => ⟨S256x64, .f32⟩
  | .local _ .vmem, ⟨11, _⟩ => ⟨S64x512, .f32⟩
  | .local _ .vmem, ⟨12, _⟩ => ⟨S256x1, .f32⟩
  | .local _ .vmem, ⟨13, _⟩ => ⟨S256x1, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  inb_S64x512_S64x512_0_0 : ∀ a, (![0, 0] : Fin 2 → Nat) a + S64x512.size a ≤ S64x512.size a
  h_S64x512 : 0 < S64x512.numel
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  shapeCasts_S64x512_S64x512 : S64x512.ShapeCasts S64x512
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  broadcasts_S256x1_S256x512 : S256x1.Broadcasts S256x512
  dot_S64x4096_S4096x512_S64x512_1_0_0_1_n_n_wf : DotDims.WF S64x4096 S4096x512 S64x512 [1] [0] [0] [1] [] []
  dot_S256x4096_S4096x512_S256x512_1_0_0_1_n_n_wf : DotDims.WF S256x4096 S4096x512 S256x512 [1] [0] [0] [1] [] []
  dot_S256x64_S64x512_S256x512_1_0_0_1_n_n_wf : DotDims.WF S256x64 S64x512 S256x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S64x512.size a
  hwx0_0 : ∀ i : grid0.Coords, EltTy.bits .f32 = 32 ∨ (Rect.block (s := S64x512) S64x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x512.size a
  hwx1_0 : ∀ i : grid1.Coords, EltTy.bits .f32 = 32 ∨ (Rect.block (s := S4096x512) S256x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x512.size a ≤ S4096x512.size a
  hwx1_1 : ∀ i : grid1.Coords, EltTy.bits .f32 = 32 ∨ (Rect.block (s := S4096x512) S4096x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x64.size a ≤ S4096x64.size a
  hwx1_3 : ∀ i : grid1.Coords, EltTy.bits .f32 = 32 ∨ (Rect.block (s := S4096x64) S256x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x512.size a ≤ S64x512.size a
  hwx1_4 : ∀ i : grid1.Coords, EltTy.bits .f32 = 32 ∨ (Rect.block (s := S64x512) S64x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x1.size a ≤ S4096x1.size a
  hwx1_5 : ∀ i : grid1.Coords, EltTy.bits .f32 = 32 ∨ (Rect.block (s := S4096x1) S256x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x512.size a ≤ S4096x512.size a
  hwx1_6 : ∀ i : grid1.Coords, EltTy.bits .f32 = 32 ∨ (Rect.block (s := S4096x512) S256x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x512.size a ≤ S4096x512.size a
  hwx1_7 : ∀ i : grid1.Coords, EltTy.bits .f32 = 32 ∨ (Rect.block (s := S4096x512) S256x512.size (cc1_transform_7 i) (hinb1_7 i)).WholeWords (EltTy.packing .f32)

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_arg0) S64x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4096x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S64x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1_0) S256x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v1_1) S256x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x512 : Shape := ⟨2, ![64, 512]⟩
abbrev S4096x512 : Shape := ⟨2, ![4096, 512]⟩
abbrev S4096x4096 : Shape := ⟨2, ![4096, 4096]⟩
abbrev S4096x1 : Shape := ⟨2, ![4096, 1]⟩
abbrev S4096x64 : Shape := ⟨2, ![4096, 64]⟩
abbrev S64x4096 : Shape := ⟨2, ![64, 4096]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S64x512, .f32⟩
  | .hbm, ⟨1, _⟩ => ⟨S4096x512, .f32⟩
  | .hbm, ⟨2, _⟩ => ⟨S4096x512, .f32⟩
  | .hbm, ⟨3, _⟩ => ⟨S4096x4096, .f32⟩
  | .hbm, ⟨4, _⟩ => ⟨S4096x1, .f32⟩
  | .hbm, ⟨5, _⟩ => ⟨S4096x64, .f32⟩
  | .hbm, ⟨6, _⟩ => ⟨S64x4096, .f32⟩
  | .hbm, ⟨7, _⟩ => ⟨S64x512, .f32⟩
  | .hbm, ⟨8, _⟩ => ⟨S64x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S_, .f32⟩
  | .hbm, ⟨21, _⟩ => ⟨S4096x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S4096x512, .i1⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  dot_S64x4096_S4096x512_S64x512_1_0_0_1_n_n_wf : DotDims.WF S64x4096 S4096x512 S64x512 [1] [0] [0] [1] [] []
  dot_S4096x64_S64x512_S4096x512_1_0_0_1_n_n_wf : DotDims.WF S4096x64 S64x512 S4096x512 [1] [0] [0] [1] [] []
  dot_S4096x4096_S4096x512_S4096x512_1_0_0_1_n_n_wf : DotDims.WF S4096x4096 S4096x512 S4096x512 [1] [0] [0] [1] [] []

variable [Facts₀]

def dot_S64x4096_S4096x512_S64x512_1_0_0_1_n_n : DotDims S64x4096 S4096x512 S64x512 where
  lhsContracting := [1]
  rhsContracting := [0]
  lhsNonContracting := [0]
  rhsNonContracting := [1]
  lhsBatch := []
  rhsBatch := []
  wf := dot_S64x4096_S4096x512_S64x512_1_0_0_1_n_n_wf
def dot_S4096x64_S64x512_S4096x512_1_0_0_1_n_n : DotDims S4096x64 S64x512 S4096x512 where
  lhsContracting := [1]
  rhsContracting := [0]
  lhsNonContracting := [0]
  rhsNonContracting := [1]
  lhsBatch := []
  rhsBatch := []
  wf := dot_S4096x64_S64x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf

class Facts : Prop extends Facts₀ where

variable [Facts]
-- ==== Proof.Spec.lean ====
import Idealize.ShloMosaic.PureOps.Ideal.Laws
import Idealize.ShloMosaic.Lib.ValueIdx

/-!
# One step of a recurrent network with a gated low-rank loop, entry by entry

The state `x` and the rates `r` are `4096 × 512` (neurons by batch). The recurrent drive of neuron `i` in batch column
`q` is `(J r)(i, q) + (U (g ⊙ (V r)))(i, q)`: a full-rank part `J r` and a rank-64 loop whose 64 channels are gated entry
by entry by `g` (`64 × 512`). The state moves a fixed fraction `h` of the way along `-x + drive + b`
(`b` one number per neuron), and the new rate is the softplus of the new state, written the numerically careful
way `max z 0 + log (1 + exp (-|z - 0|))`.
All numbers are extended reals; a sum over a contracted axis is a finite sum, so its order and grouping do not matter.
-/

noncomputable section

namespace Cert.RnnStep

open Idealize.ShloMosaic Idealize.ShloMosaic.ValueIdx

/-- An `a × b` matrix of extended reals, indexed as the arrays are. -/
abbrev Mat (a b : Nat) : Type := (⟨2, ![a, b]⟩ : Shape).Idx → EReal

/-- Entry `(p, q)` of the matrix product `A B`. -/
def entry {M K N : Nat} (A : Mat M K) (B : Mat K N) (p : Fin M) (q : Fin N) : EReal :=
  ∑ k : Fin K, A (ix2 p k) * B (ix2 k q)

/-- The number zero, as both programs spell it. -/
abbrev zeroF : EReal := Ideal.ofBits .f32 0x00000000#32

/-- The step fraction `h`, the same binary number in both programs. -/
abbrev stepF : EReal := Ideal.ofBits .f32 0x3EAAAAAB#32

/-- The gated projection `g ⊙ (V r)`, `64 × 512`. -/
def gated (g : Mat 64 512) (r : Mat 4096 512) (V : Mat 64 4096) : Mat 64 512 :=
  fun j => g j * entry V r (j 0) (j 1)

/-- The new state over a given `64 × 512` loop signal `s`: `x + h · ((-x + (U s + J r)) + b)`. -/
def stateOf (s : Mat 64 512) (x r : Mat 4096 512) (J : Mat 4096 4096) (b : Mat 4096 1) (U : Mat 4096 64) : Mat 4096 512 :=
  fun i => x i + stepF * ((-(x i) + (entry U s (i 0) (i 1) + entry J r (i 0) (i 1))) + b (ix2 (i 0) (0 : Fin 1)))

/-- The new state: the loop signal is the gated projection. -/
def stateNew (g : Mat 64 512) (x r : Mat 4096 512) (J : Mat 4096 4096) (b : Mat 4096 1) (U : Mat 4096 64)
    (V : Mat 64 4096) : Mat 4096 512 :=
  stateOf (gated g r V) x r J b U

/-- Softplus the careful way; the first branch is taken only where `z - 0` differs from itself, which no extended real does. -/
def softplus (z : EReal) : EReal :=
  Scalar.select (Ideal.cmp .une (z - zeroF) (z - zeroF)) (z + zeroF)
    (max z zeroF + Ideal.log1p (Ideal.exp (-(max (z - zeroF) (-(z - zeroF))))))

/-- The new rates over a given loop signal: softplus of the new state. -/
def rateOf (s : Mat 64 512) (x r : Mat 4096 512) (J : Mat 4096 4096) (b : Mat 4096 1) (U : Mat 4096 64) : Mat 4096 512 :=
  fun i => softplus (stateOf s x r J b U i)

/-- The new rates. -/
def rateNew (g : Mat 64 512) (x r : Mat 4096 512) (J : Mat 4096 4096) (b : Mat 4096 1) (U : Mat 4096 64)
    (V : Mat 64 4096) : Mat 4096 512 :=
  rateOf (gated g r V) x r J b U

end Cert.RnnStep

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelBlocks.lean ====
import proofs.«103957_j9560597201160_1_alg».proof.Proof.Gen.KernelIdeal.Skeleton
import proofs.«103957_j9560597201160_1_alg».proof.Proof.Spec
import proofs.«103957_j9560597201160_1_alg».proof.Proof.LibPlainMatmul
import proofs.«103957_j9560597201160_1_alg».proof.Proof.LibKeepdims

/-!
# What the two kernel bodies compute, at one entry of their blocks

The first kernel sees the whole arrays: its stored value at `(j, q)` is the gated projection. The second kernel sees
256 neurons at a time (a block of rows of `x`, `J`, `U` and the offsets) and the whole of the rates and of the gated
projection: its first stored value at row `p` of the block and column `q` is the state update of that neuron, with the
two products taken in the other order and `-x` written `0 - x`; its second stored value is the softplus of the first.
-/

noncomputable section

namespace Cert.KernelIdeal.Blocks

open Cert.KernelIdeal Cert.KernelIdeal.Gen Cert.RnnStep Idealize.ShloMosaic Idealize.ShloMosaic.ValueIdx

/-- The first kernel's stored value at `(j, q)`: `g(j, q) · Σₗ V(j, l) r(l, q)`. -/
theorem proj_apply (r : Mat 4096 512) (V : Mat 64 4096) (g : Mat 64 512) (j : Fin 64) (q : Fin 512) :
    k0_pay1 (F := Ideal) r V g (ix2 j q) = gated g r V (ix2 j q) := by
  unfold k0_pay1
  show g (ix2 j q) * FloatOps.matmul (F := Ideal) (DotDims.plain 64 4096 512) none V r (constant (F := Ideal) _ .f32 0x00000000#32) (ix2 j q) = _
  rw [PlainMatmul.matmul_plain_zero_apply]
  rfl

/-- The block form of the state update at row `p` of a block of 256 neurons, column `q`. -/
def stateBlk (r : Mat 4096 512) (Jb : Mat 256 4096) (Ub : Mat 256 64) (s : Mat 64 512) (xb : Mat 256 512) (bb : Mat 256 1)
    (p : Fin 256) (q : Fin 512) : EReal :=
  xb (ix2 p q) + stepF * (((zeroF - xb (ix2 p q)) + (entry Jb r p q + entry Ub s p q)) + bb (ix2 p (0 : Fin 1)))

/-- The second kernel's first stored value is that block form. -/
theorem state_apply (r : Mat 4096 512) (Jb : Mat 256 4096) (Ub : Mat 256 64) (s : Mat 64 512) (xb : Mat 256 512) (bb : Mat 256 1)
    (p : Fin 256) (q : Fin 512) :
    k1_pay1 (F := Ideal) r Jb Ub s xb bb (ix2 p q) = stateBlk r Jb Ub s xb bb p q := by
  unfold k1_pay1 stateBlk
  show xb (ix2 p q) + stepF * (((zeroF - xb (ix2 p q))
      + (FloatOps.matmul (F := Ideal) (DotDims.plain 256 4096 512) none Jb r (constant (F := Ideal) _ .f32 0x00000000#32) (ix2 p q)
        + FloatOps.matmul (F := Ideal) (DotDims.plain 256 64 512) none Ub (shapeCast S64x512 s shapeCasts_S64x512_S64x512) (constant (F := Ideal) _ .f32 0x00000000#32) (ix2 p q)))
      + broadcastTo S256x512 bb broadcasts_S256x1_S256x512 (ix2 p q)) = _
  rw [PlainMatmul.matmul_plain_zero_apply, PlainMatmul.matmul_plain_zero_apply, Cert.Keepdims.broadcastTo_a1_ab_apply, shapeCast_self]
  rfl

/-- The second kernel's second stored value is the softplus of its first. -/
theorem rate_apply (r : Mat 4096 512) (Jb : Mat 256 4096) (Ub : Mat 256 64) (s : Mat 64 512) (xb : Mat 256 512) (bb : Mat 256 1)
    (y : S256x512.Idx) :
    k1_pay2 (F := Ideal) r Jb Ub s xb bb y = softplus (k1_pay1 (F := Ideal) r Jb Ub s xb bb y) := by
  unfold k1_pay2 softplus
  generalize k1_pay1 (F := Ideal) r Jb Ub s xb bb = z
  show Scalar.select (Ideal.cmp .one (z y - zeroF) (z y - zeroF)) (z y + zeroF)
    (max (z y) zeroF + Ideal.log1p (Ideal.exp (zeroF - max (z y - zeroF) (-(z y - zeroF))))) = _
  rw [show zeroF - max (z y - zeroF) (-(z y - zeroF)) = -(max (z y - zeroF) (-(z y - zeroF))) from by
    rw [show zeroF = 0 from Ideal.ofBits_zero_f32]; exact zero_sub _]
  rfl

end Cert.KernelIdeal.Blocks

end
-- ==== Proof.KernelValue.lean ====
import proofs.«103957_j9560597201160_1_alg».proof.Proof.KernelRun
import proofs.«103957_j9560597201160_1_alg».proof.Proof.KernelBlocks
import Idealize.ShloMosaic.Lib.Pipeline.Value
import Idealize.ShloMosaic.Lib.Tactic

/-!
# The two result arrays of the kernel program

The first region has one grid point that sees whole arrays and leaves the gated projection in its result array.
The second region has 16 points; point `t` works on neurons `256 t … 256 t + 255`: it reads that block of rows of
`x`, `J`, `U` and the offsets, the whole rates and the whole gated projection, and writes the same block of rows of the
new state and of the new rates. The blocks of rows tile both result arrays, so after the region the arrays hold the new
state and the new rates at every entry.
-/

set_option maxRecDepth 16384

noncomputable section

namespace Cert.KernelIdeal.StepValue

open Cert.KernelIdeal Cert.KernelIdeal.Gen Cert.KernelIdeal.GenRun Cert.KernelIdeal.Blocks Cert.RnnStep
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section Regions

variable (V : (c : Dev nD) → (b : Ref sig .tc) → Buf (Elt Ideal) ((c : Thread nD τ).loc b))

/-! ## The first region: whole arrays in, the gated projection out -/

theorem idx0_0 : ∀ t : Fin cfg0.N, win0_0.index t (0 : Fin 2) = 0 ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = 0 ∧ win0_2.index t (1 : Fin 2) = 0 :=
  (by decide +kernel : ∀ t : Fin grid0.N, _)
theorem idx0_3 : ∀ t : Fin cfg0.N, win0_3.index t (0 : Fin 2) = 0 ∧ win0_3.index t (1 : Fin 2) = 0 :=
  (by decide +kernel : ∀ t : Fin grid0.N, _)

/-- The first region's three input blocks at its one point, as matrices. -/
abbrev gB0 (c : Dev nD) (t : Fin cfg0.N) : Mat 64 512 := iblk0 V c 0 t
abbrev rB0 (c : Dev nD) (t : Fin cfg0.N) : Mat 4096 512 := iblk0 V c 1 t
abbrev VB0 (c : Dev nD) (t : Fin cfg0.N) : Mat 64 4096 := iblk0 V c 2 t

/-- The gate's block is the whole gate array. -/
theorem gB0_eq (c : Dev nD) (t : Fin cfg0.N) : gB0 V c t = (V c main_arg0 : S64x512.Idx → EReal) := by
  obtain ⟨h0, h1⟩ := idx0_0 t
  funext y
  show (iblk0 V c 0 t : Vec Ideal S64x512 .f32) y = _
  unfold iblk0
  rw [View.read_apply]
  show V c main_arg0 _ = V c main_arg0 _
  congr 1
  funext a
  apply Fin.ext
  match a with
  | ⟨0, _⟩ => show win0_0.index t 0 * 64 + 1 * (y 0).val = (y 0).val; rw [h0]; omega
  | ⟨1, _⟩ => show win0_0.index t 1 * 512 + 1 * (y 1).val = (y 1).val; rw [h1]; omega

/-- The rates' block is the whole rates array. -/
theorem rB0_eq (c : Dev nD) (t : Fin cfg0.N) : rB0 V c t = (V c main_arg2 : S4096x512.Idx → EReal) := by
  obtain ⟨h0, h1⟩ := idx0_1 t
  funext y
  show (iblk0 V c 1 t : Vec Ideal S4096x512 .f32) y = _
  unfold iblk0
  rw [View.read_apply]
  show V c main_arg2 _ = V c main_arg2 _
  congr 1
  funext a
  apply Fin.ext
  match a with
  | ⟨0, _⟩ => show win0_1.index t 0 * 4096 + 1 * (y 0).val = (y 0).val; rw [h0]; omega
  | ⟨1, _⟩ => show win0_1.index t 1 * 512 + 1 * (y 1).val = (y 1).val; rw [h1]; omega

/-- The projection matrix's block is the whole matrix. -/
theorem VB0_eq (c : Dev nD) (t : Fin cfg0.N) : VB0 V c t = (V c main_arg6 : S64x4096.Idx → EReal) := by
  obtain ⟨h0, h1⟩ := idx0_2 t
  funext y
  show (iblk0 V c 2 t : Vec Ideal S64x4096 .f32) y = _
  unfold iblk0
  rw [View.read_apply]
  show V c main_arg6 _ = V c main_arg6 _
  congr 1
  funext a
  apply Fin.ext
  match a with
  | ⟨0, _⟩ => show win0_2.index t 0 * 64 + 1 * (y 0).val = (y 0).val; rw [h0]; omega
  | ⟨1, _⟩ => show win0_2.index t 1 * 4096 + 1 * (y 1).val = (y 1).val; rw [h1]; omega

/-- The first kernel's stored value at an entry `y` of its block is the gated projection of the arrays at the entry `i` with the
    same coordinates. -/
theorem proj_block (c : Dev nD) (t : Fin cfg0.N) (y : S64x512.Idx) (i : S64x512.Idx)
    (e0 : (i 0).val = (y 0).val) (e1 : (i 1).val = (y 1).val) :
    k0_pay1 (F := Ideal) (rB0 V c t) (VB0 V c t) (gB0 V c t) y = gated (V c main_arg0) (V c main_arg2) (V c main_arg6) i := by
  obtain ⟨j, q, rfl⟩ : ∃ (j : Fin 64) (q : Fin 512), y = ix2 j q := ⟨y 0, y 1, eq_ix2 y⟩
  have hi : i = ix2 j q := funext fun a => Fin.ext (by match a with | ⟨0, _⟩ => exact e0 | ⟨1, _⟩ => exact e1)
  rw [hi, proj_apply, gB0_eq, rB0_eq, VB0_eq]

/-- What the one point writes back: the whole gated projection. -/
theorem flushed_proj (c : Dev nD) (t : Fin cfg0.N) :
    (dat0 V c).flushed 3 t = ((cfg0.win 3).blk t).view.read (Elt Ideal) (gated (V c main_arg0) (V c main_arg2) (V c main_arg6)) := by
  obtain ⟨h0, h1⟩ := idx0_3 t
  show (cfg0.win 3).cut (grid0.coords t) ((dat0 V c).after 3 t) = _
  rw [after0_3]
  unfold out0_3
  rw [View.canon_unit_zero hz]
  simp only [View.ld_unit_zero (S := S4096x512) hz, View.ld_unit_zero (S := S64x4096) hz, View.ld_unit_zero (S := S64x512) hz]
  funext y
  exact proj_block V c t y _
    (by show win0_3.index t 0 * 64 + 1 * (y 0).val = (y 0).val; rw [h0]; omega)
    (by show win0_3.index t 1 * 512 + 1 * (y 1).val = (y 1).val; rw [h1]; omega)

theorem mem_blk_proj (t : Fin cfg0.N) (i : S64x512.Idx) :
    i ∈ ((cfg0.win 3).blk t).view.set ↔ ∀ a : Fin 2, win0_3.index t a * S64x512.size a ≤ (i a).val ∧ (i a).val < win0_3.index t a * S64x512.size a + S64x512.size a := by
  show i ∈ ((View.whole main_v0).slice (win0_3.rect t)).set ↔ _
  rw [View.set_slice_whole, Rect.mem_set_unit]
  exact Iff.rfl

/-- The one point's block is the whole array. -/
theorem cover_proj (i : S64x512.Idx) : ∃ t : Fin cfg0.N, (cfg0.win 3).flush t = true ∧ i ∈ ((cfg0.win 3).blk t).view.set := by
  have hi0 : (i 0).val < 64 := (i 0).isLt
  have hi1 : (i 1).val < 512 := (i 1).isLt
  obtain ⟨h0, h1⟩ := idx0_3 t0_0
  refine ⟨t0_0, flush0_3 _, ?_⟩
  rw [mem_blk_proj]
  intro a
  match a with
  | ⟨0, _⟩ => show win0_3.index t0_0 0 * 64 ≤ (i 0).val ∧ (i 0).val < win0_3.index t0_0 0 * 64 + 64; rw [h0]; omega
  | ⟨1, _⟩ => show win0_3.index t0_0 1 * 512 ≤ (i 1).val ∧ (i 1).val < win0_3.index t0_0 1 * 512 + 512; rw [h1]; omega

/-- After the first region its result array holds the gated projection. -/
theorem final_proj (c : Dev nD) : (dat0 V c).arrAt 3 cfg0.N = gated (V c main_arg0) (V c main_arg2) (V c main_arg6) :=
  (dat0 V c).arrAt_eq_of_cover 3 _ (fun t _ => flushed_proj V c t) cover_proj

/-! ## The second region: 16 blocks of 256 neurons -/

theorem idx1_0 : ∀ t : Fin cfg1.N, win1_0.index t (0 : Fin 2) = t.val ∧ win1_0.index t (1 : Fin 2) = 0 :=
  (by decide +kernel : ∀ t : Fin grid1.N, _)
theorem idx1_2 : ∀ t : Fin cfg1.N, win1_2.index t (0 : Fin 2) = t.val ∧ win1_2.index t (1 : Fin 2) = 0 :=
  (by decide +kernel : ∀ t : Fin grid1.N, _)
theorem idx1_3 : ∀ t : Fin cfg1.N, win1_3.index t (0 : Fin 2) = t.val ∧ win1_3.index t (1 : Fin 2) = 0 :=
  (by decide +kernel : ∀ t : Fin grid1.N, _)
theorem idx1_5 : ∀ t : Fin cfg1.N, win1_5.index t (0 : Fin 2) = t.val ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val ∧ win1_7.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)

theorem lt16 (t : Fin cfg1.N) : t.val < 16 := lt_of_lt_of_eq t.isLt N_1

/-- Neuron `256 t + p`: row `p` of the block of rows point `t` works on. -/
def row (t : Fin cfg1.N) (p : Fin 256) : Fin 4096 := ⟨t.val * 256 + p.val, by have := lt16 t; have := p.isLt; omega⟩

/-- The second region's six input blocks at point `t`, as matrices. -/
abbrev xB (c : Dev nD) (t : Fin cfg1.N) : Mat 256 512 := iblk1 V c 0 t
abbrev rB (c : Dev nD) (t : Fin cfg1.N) : Mat 4096 512 := iblk1 V c 1 t
abbrev JB (c : Dev nD) (t : Fin cfg1.N) : Mat 256 4096 := iblk1 V c 2 t
abbrev UB (c : Dev nD) (t : Fin cfg1.N) : Mat 256 64 := iblk1 V c 3 t
abbrev sB (c : Dev nD) (t : Fin cfg1.N) : Mat 64 512 := iblk1 V c 4 t
abbrev bB (c : Dev nD) (t : Fin cfg1.N) : Mat 256 1 := iblk1 V c 5 t

/-- Row `p` of the block of `x` is row `256 t + p` of `x`. -/
theorem xB_apply (c : Dev nD) (t : Fin cfg1.N) (p : Fin 256) (k : Fin 512) :
    xB V c t (ix2 p k) = (V c main_arg1 : S4096x512.Idx → EReal) (ix2 (row t p) k) := by
  obtain ⟨h0, h1⟩ := idx1_0 t
  show (iblk1 V c 0 t : Vec Ideal S256x512 .f32) (ix2 p k) = _
  unfold iblk1
  rw [View.read_apply]
  show V c main_arg1 _ = V c main_arg1 _
  congr 1
  funext a
  apply Fin.ext
  match a with
  | ⟨0, _⟩ => show win1_0.index t 0 * 256 + 1 * p.val = t.val * 256 + p.val; rw [h0]; omega
  | ⟨1, _⟩ => show win1_0.index t 1 * 512 + 1 * k.val = k.val; rw [h1]; omega

/-- Row `p` of the block of `J` is row `256 t + p` of `J`. -/
theorem JB_apply (c : Dev nD) (t : Fin cfg1.N) (p : Fin 256) (k : Fin 4096) :
    JB V c t (ix2 p k) = (V c main_arg3 : S4096x4096.Idx → EReal) (ix2 (row t p) k) := by
  obtain ⟨h0, h1⟩ := idx1_2 t
  show (iblk1 V c 2 t : Vec Ideal S256x4096 .f32) (ix2 p k) = _
  unfold iblk1
  rw [View.read_apply]
  show V c main_arg3 _ = V c main_arg3 _
  congr 1
  funext a
  apply Fin.ext
  match a with
  | ⟨0, _⟩ => show win1_2.index t 0 * 256 + 1 * p.val = t.val * 256 + p.val; rw [h0]; omega
  | ⟨1, _⟩ => show win1_2.index t 1 * 4096 + 1 * k.val = k.val; rw [h1]; omega

/-- Row `p` of the block of `U` is row `256 t + p` of `U`. -/
theorem UB_apply (c : Dev nD) (t : Fin cfg1.N) (p : Fin 256) (k : Fin 64) :
    UB V c t (ix2 p k) = (V c main_arg5 : S4096x64.Idx → EReal) (ix2 (row t p) k) := by
  obtain ⟨h0, h1⟩ := idx1_3 t
  show (iblk1 V c 3 t : Vec Ideal S256x64 .f32) (ix2 p k) = _
  unfold iblk1
  rw [View.read_apply]
  show V c main_arg5 _ = V c main_arg5 _
  congr 1
  funext a
  apply Fin.ext
  match a with
  | ⟨0, _⟩ => show win1_3.index t 0 * 256 + 1 * p.val = t.val * 256 + p.val; rw [h0]; omega
  | ⟨1, _⟩ => show win1_3.index t 1 * 64 + 1 * k.val = k.val; rw [h1]; omega

/-- Row `p` of the block of offsets is the offset of neuron `256 t + p`. -/
theorem bB_apply (c : Dev nD) (t : Fin cfg1.N) (p : Fin 256) (k : Fin 1) :
    bB V c t (ix2 p k) = (V c main_arg4 : S4096x1.Idx → EReal) (ix2 (row t p) k) := by
  obtain ⟨h0, h1⟩ := idx1_5 t
  show (iblk1 V c 5 t : Vec Ideal S256x1 .f32) (ix2 p k) = _
  unfold iblk1
  rw [View.read_apply]
  show V c main_arg4 _ = V c main_arg4 _
  congr 1
  funext a
  apply Fin.ext
  match a with
  | ⟨0, _⟩ => show win1_5.index t 0 * 256 + 1 * p.val = t.val * 256 + p.val; rw [h0]; omega
  | ⟨1, _⟩ => show win1_5.index t 1 * 1 + 1 * k.val = k.val; rw [h1]; omega

/-- The rates' block is the whole rates array at every point. -/
theorem rB_eq (c : Dev nD) (t : Fin cfg1.N) : rB V c t = (V c main_arg2 : S4096x512.Idx → EReal) := by
  obtain ⟨h0, h1⟩ := idx1_1 t
  funext y
  show (iblk1 V c 1 t : Vec Ideal S4096x512 .f32) y = _
  unfold iblk1
  rw [View.read_apply]
  show V c main_arg2 _ = V c main_arg2 _
  congr 1
  funext a
  apply Fin.ext
  match a with
  | ⟨0, _⟩ => show win1_1.index t 0 * 4096 + 1 * (y 0).val = (y 0).val; rw [h0]; omega
  | ⟨1, _⟩ => show win1_1.index t 1 * 512 + 1 * (y 1).val = (y 1).val; rw [h1]; omega

/-- The loop signal's block is the whole signal at every point. -/
theorem sB_eq (c : Dev nD) (t : Fin cfg1.N) : sB V c t = (V c main_v0 : S64x512.Idx → EReal) := by
  obtain ⟨h0, h1⟩ := idx1_4 t
  funext y
  show (iblk1 V c 4 t : Vec Ideal S64x512 .f32) y = _
  unfold iblk1
  rw [View.read_apply]
  show V c main_v0 _ = V c main_v0 _
  congr 1
  funext a
  apply Fin.ext
  match a with
  | ⟨0, _⟩ => show win1_4.index t 0 * 64 + 1 * (y 0).val = (y 0).val; rw [h0]; omega
  | ⟨1, _⟩ => show win1_4.index t 1 * 512 + 1 * (y 1).val = (y 1).val; rw [h1]; omega

/-- Row `p` of the block's product with the rates is row `256 t + p` of `J r`. -/
theorem entry_J (c : Dev nD) (t : Fin cfg1.N) (p : Fin 256) (q : Fin 512) :
    entry (JB V c t) (rB V c t) p q = entry (V c main_arg3 : S4096x4096.Idx → EReal) (V c main_arg2 : S4096x512.Idx → EReal) (row t p) q := by
  rw [rB_eq]
  unfold entry
  exact Finset.sum_congr rfl fun k _ => by rw [JB_apply]

/-- Row `p` of the block's product with the loop signal is row `256 t + p` of `U s`. -/
theorem entry_U (c : Dev nD) (t : Fin cfg1.N) (p : Fin 256) (q : Fin 512) :
    entry (UB V c t) (sB V c t) p q = entry (V c main_arg5 : S4096x64.Idx → EReal) (V c main_v0 : S64x512.Idx → EReal) (row t p) q := by
  rw [sB_eq]
  unfold entry
  exact Finset.sum_congr rfl fun k _ => by rw [UB_apply]

/-- The second kernel's first stored value at row `p`, column `q` of point `t`'s block is the new state of neuron `256 t + p`:
    `0 - x = -x`, and the two products add in either order. -/
theorem state_point (c : Dev nD) (t : Fin cfg1.N) (p : Fin 256) (q : Fin 512) :
    k1_pay1 (F := Ideal) (rB V c t) (JB V c t) (UB V c t) (sB V c t) (xB V c t) (bB V c t) (ix2 p q)
      = stateOf (V c main_v0) (V c main_arg1) (V c main_arg2) (V c main_arg3) (V c main_arg4) (V c main_arg5) (ix2 (row t p) q) := by
  rw [state_apply]
  unfold stateBlk
  rw [xB_apply, entry_J, entry_U, bB_apply, show zeroF = (0 : EReal) from Ideal.ofBits_zero_f32, zero_sub,
    add_comm (entry _ _ _ _) (entry _ _ _ _)]
  rfl

/-- The same at an entry `y` of the block and the entry `i` of the array it lands on. -/
theorem state_block (c : Dev nD) (t : Fin cfg1.N) (y : S256x512.Idx) (i : S4096x512.Idx)
    (e0 : (i 0).val = t.val * 256 + (y 0).val) (e1 : (i 1).val = (y 1).val) :
    k1_pay1 (F := Ideal) (rB V c t) (JB V c t) (UB V c t) (sB V c t) (xB V c t) (bB V c t) y
      = stateOf (V c main_v0) (V c main_arg1) (V c main_arg2) (V c main_arg3) (V c main_arg4) (V c main_arg5) i := by
  obtain ⟨p, q, rfl⟩ : ∃ (p : Fin 256) (q : Fin 512), y = ix2 p q := ⟨y 0, y 1, eq_ix2 y⟩
  have hi : i = ix2 (row t p) q := funext fun a => Fin.ext (by match a with | ⟨0, _⟩ => exact e0 | ⟨1, _⟩ => exact e1)
  rw [hi]
  exact state_point V c t p q

/-- The second stored value is the softplus of the first, so it is the new rate of the same neuron. -/
theorem rate_block (c : Dev nD) (t : Fin cfg1.N) (y : S256x512.Idx) (i : S4096x512.Idx)
    (e0 : (i 0).val = t.val * 256 + (y 0).val) (e1 : (i 1).val = (y 1).val) :
    k1_pay2 (F := Ideal) (rB V c t) (JB V c t) (UB V c t) (sB V c t) (xB V c t) (bB V c t) y
      = rateOf (V c main_v0) (V c main_arg1) (V c main_arg2) (V c main_arg3) (V c main_arg4) (V c main_arg5) i := by
  rw [rate_apply, state_block V c t y i e0 e1]
  rfl

/-- What point `t` writes back through result window 6: its block of rows of `stateOf`. -/
theorem flushed_6 (c : Dev nD) (t : Fin cfg1.N) :
    (dat1 V c).flushed 6 t = ((cfg1.win 6).blk t).view.read (Elt Ideal)
      (stateOf (V c main_v0) (V c main_arg1) (V c main_arg2) (V c main_arg3) (V c main_arg4) (V c main_arg5)) := by
  obtain ⟨h0, h1⟩ := idx1_6 t
  show (cfg1.win 6).cut (grid1.coords t) ((dat1 V c).after 6 t) = _
  rw [after1_6]
  unfold out1_6
  rw [View.canon_unit_zero hz]
  simp only [View.ld_unit_zero (S := S4096x512) hz, View.ld_unit_zero (S := S256x4096) hz, View.ld_unit_zero (S := S256x64) hz, View.ld_unit_zero (S := S64x512) hz, View.ld_unit_zero (S := S256x512) hz, View.ld_unit_zero (S := S256x1) hz]
  funext y
  exact state_block V c t y _
    (by show win1_6.index t 0 * 256 + 1 * (y 0).val = t.val * 256 + (y 0).val; rw [h0]; omega)
    (by show win1_6.index t 1 * 512 + 1 * (y 1).val = (y 1).val; rw [h1]; omega)

/-- An entry of the result array lies in point `t`'s block of window 6 iff each coordinate lies in the block's range. -/
theorem mem_blk_6 (t : Fin cfg1.N) (i : S4096x512.Idx) :
    i ∈ ((cfg1.win 6).blk t).view.set ↔ ∀ a : Fin 2, win1_6.index t a * S256x512.size a ≤ (i a).val ∧ (i a).val < win1_6.index t a * S256x512.size a + S256x512.size a := by
  show i ∈ ((View.whole main_v1_0).slice (win1_6.rect t)).set ↔ _
  rw [View.set_slice_whole, Rect.mem_set_unit]
  exact Iff.rfl

/-- Every entry is written by the point that works on its neuron's block of 256 rows. -/
theorem cover_6 (i : S4096x512.Idx) : ∃ t : Fin cfg1.N, (cfg1.win 6).flush t = true ∧ i ∈ ((cfg1.win 6).blk t).view.set := by
  have hi0 : (i 0).val < 4096 := (i 0).isLt
  have hi1 : (i 1).val < 512 := (i 1).isLt
  have ht : (i 0).val / 256 < cfg1.N := by rw [show cfg1.N = 16 from N_1]; omega
  obtain ⟨h0, h1⟩ := idx1_6 ⟨(i 0).val / 256, ht⟩
  refine ⟨⟨(i 0).val / 256, ht⟩, flush1_6 _, ?_⟩
  rw [mem_blk_6]
  intro a
  match a with
  | ⟨0, _⟩ =>
    show win1_6.index ⟨(i 0).val / 256, ht⟩ 0 * 256 ≤ (i 0).val ∧ (i 0).val < win1_6.index ⟨(i 0).val / 256, ht⟩ 0 * 256 + 256
    rw [h0]; show (i 0).val / 256 * 256 ≤ (i 0).val ∧ (i 0).val < (i 0).val / 256 * 256 + 256; omega
  | ⟨1, _⟩ =>
    show win1_6.index ⟨(i 0).val / 256, ht⟩ 1 * 512 ≤ (i 1).val ∧ (i 1).val < win1_6.index ⟨(i 0).val / 256, ht⟩ 1 * 512 + 512
    rw [h1]; omega

/-- The result array of window 6 after the second region. -/
theorem final_6 (c : Dev nD) : (dat1 V c).arrAt 6 cfg1.N
    = stateOf (V c main_v0) (V c main_arg1) (V c main_arg2) (V c main_arg3) (V c main_arg4) (V c main_arg5) :=
  (dat1 V c).arrAt_eq_of_cover 6 _ (fun t _ => flushed_6 V c t) cover_6

/-- What point `t` writes back through result window 7: its block of rows of `rateOf`. -/
theorem flushed_7 (c : Dev nD) (t : Fin cfg1.N) :
    (dat1 V c).flushed 7 t = ((cfg1.win 7).blk t).view.read (Elt Ideal)
      (rateOf (V c main_v0) (V c main_arg1) (V c main_arg2) (V c main_arg3) (V c main_arg4) (V c main_arg5)) := by
  obtain ⟨h0, h1⟩ := idx1_7 t
  show (cfg1.win 7).cut (grid1.coords t) ((dat1 V c).after 7 t) = _
  rw [after1_7]
  unfold out1_7
  rw [View.canon_unit_zero hz]
  simp only [View.ld_unit_zero (S := S4096x512) hz, View.ld_unit_zero (S := S256x4096) hz, View.ld_unit_zero (S := S256x64) hz, View.ld_unit_zero (S := S64x512) hz, View.ld_unit_zero (S := S256x512) hz, View.ld_unit_zero (S := S256x1) hz]
  funext y
  exact rate_block V c t y _
    (by show win1_7.index t 0 * 256 + 1 * (y 0).val = t.val * 256 + (y 0).val; rw [h0]; omega)
    (by show win1_7.index t 1 * 512 + 1 * (y 1).val = (y 1).val; rw [h1]; omega)

/-- An entry of the result array lies in point `t`'s block of window 7 iff each coordinate lies in the block's range. -/
theorem mem_blk_7 (t : Fin cfg1.N) (i : S4096x512.Idx) :
    i ∈ ((cfg1.win 7).blk t).view.set ↔ ∀ a : Fin 2, win1_7.index t a * S256x512.size a ≤ (i a).val ∧ (i a).val < win1_7.index t a * S256x512.size a + S256x512.size a := by
  show i ∈ ((View.whole main_v1_1).slice (win1_7.rect t)).set ↔ _
  rw [View.set_slice_whole, Rect.mem_set_unit]
  exact Iff.rfl

/-- Every entry is written by the point that works on its neuron's block of 256 rows. -/
theorem cover_7 (i : S4096x512.Idx) : ∃ t : Fin cfg1.N, (cfg1.win 7).flush t = true ∧ i ∈ ((cfg1.win 7).blk t).view.set := by
  have hi0 : (i 0).val < 4096 := (i 0).isLt
  have hi1 : (i 1).val < 512 := (i 1).isLt
  have ht : (i 0).val / 256 < cfg1.N := by rw [show cfg1.N = 16 from N_1]; omega
  obtain ⟨h0, h1⟩ := idx1_7 ⟨(i 0).val / 256, ht⟩
  refine ⟨⟨(i 0).val / 256, ht⟩, flush1_7 _, ?_⟩
  rw [mem_blk_7]
  intro a
  match a with
  | ⟨0, _⟩ =>
    show win1_7.index ⟨(i 0).val / 256, ht⟩ 0 * 256 ≤ (i 0).val ∧ (i 0).val < win1_7.index ⟨(i 0).val / 256, ht⟩ 0 * 256 + 256
    rw [h0]; show (i 0).val / 256 * 256 ≤ (i 0).val ∧ (i 0).val < (i 0).val / 256 * 256 + 256; omega
  | ⟨1, _⟩ =>
    show win1_7.index ⟨(i 0).val / 256, ht⟩ 1 * 512 ≤ (i 1).val ∧ (i 1).val < win1_7.index ⟨(i 0).val / 256, ht⟩ 1 * 512 + 512
    rw [h1]; omega

/-- The result array of window 7 after the second region. -/
theorem final_7 (c : Dev nD) : (dat1 V c).arrAt 7 cfg1.N
    = rateOf (V c main_v0) (V c main_arg1) (V c main_arg2) (V c main_arg3) (V c main_arg4) (V c main_arg5) :=
  (dat1 V c).arrAt_eq_of_cover 7 _ (fun t _ => flushed_7 V c t) cover_7

end Regions

/-! ## The run -/

variable (m : (ℓ : Loc nD τ sig) → Buf (Elt Ideal) ℓ) (ρ : Dev nD → PrngReg)

/-- What the second region finds in its arrays: the arguments as launched (no region and no host operation writes one), and
    the first region's result. -/
theorem V1_x (c : Dev nD) : V1 m ρ c main_arg1 = m ((c : Thread nD τ).loc main_arg1) := W1_of_ne m ρ c main_arg1 (by decide)
theorem V1_r (c : Dev nD) : V1 m ρ c main_arg2 = m ((c : Thread nD τ).loc main_arg2) :=
  (W1_arr m ρ c 1).trans (((dat0 (V0 m ρ) c).arrAt_in 1 rfl _).trans (A_eq0 (V0 m ρ) c 1))
theorem V1_J (c : Dev nD) : V1 m ρ c main_arg3 = m ((c : Thread nD τ).loc main_arg3) := W1_of_ne m ρ c main_arg3 (by decide)
theorem V1_b (c : Dev nD) : V1 m ρ c main_arg4 = m ((c : Thread nD τ).loc main_arg4) := W1_of_ne m ρ c main_arg4 (by decide)
theorem V1_U (c : Dev nD) : V1 m ρ c main_arg5 = m ((c : Thread nD τ).loc main_arg5) := W1_of_ne m ρ c main_arg5 (by decide)
theorem V1_s (c : Dev nD) : V1 m ρ c main_v0
    = gated (m ((c : Thread nD τ).loc main_arg0)) (m ((c : Thread nD τ).loc main_arg2)) (m ((c : Thread nD τ).loc main_arg6)) :=
  (W1_arr m ρ c 3).trans (final_proj (V0 m ρ) c)

/-- The first result array ends at the new state of the launched arrays. -/
theorem result_state (c : Dev nD) : (dat1 (V1 m ρ) c).arrAt 6 cfg1.N
    = stateNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [final_6, V1_s, V1_x, V1_r, V1_J, V1_b, V1_U]
  rfl

/-- The second result array ends at the new rates of the launched arrays. -/
theorem result_rate (c : Dev nD) : (dat1 (V1 m ρ) c).arrAt 7 cfg1.N
    = rateNew (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  rw [final_7, V1_s, V1_x, V1_r, V1_J, V1_b, V1_U]
  rfl

/-- The kernel program's run with its results read: the new state, the new rates, the arguments as launched. -/
theorem run : θ_run defs (onTc (τ := τ) (main (F := Ideal))) ⟨m, fun _ => 0, ρ⟩ (fun r => ∀ c : Dev nD,
      r.2.mem ((c.tc : Thread nD τ).loc main_v1_0)
        = stateNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_v1_1)
        = rateNew (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_state m ρ c), (h c).2.1.trans (result_rate m ρ c), (h c).2.2⟩)
    (run_named (F := Ideal) m ρ)

end Cert.KernelIdeal.StepValue

end
-- ==== Proof.RefIsSpec.lean ====
import proofs.«103957_j9560597201160_1_alg».proof.Proof.Gen.ReferenceIdeal.Read
import proofs.«103957_j9560597201160_1_alg».proof.Proof.Spec

/-!
# The reference computes the step

The reference's two results, read one operation at a time, are the new state and the new rates: its three matrix
products are the sums over the contracted coordinate, its broadcast of the per-neuron offset reads column 0 of the
neuron's row, and everything else acts entry by entry.
-/

noncomputable section

namespace Cert.ReferenceIdeal.IsStep

open Cert.ReferenceIdeal Cert.ReferenceIdeal.Read Cert.RnnStep Idealize.ShloMosaic Idealize.ShloMosaic.ValueIdx

/-- Operand coordinates of `V r` at `(j, q)`, contracted coordinate `k`. -/
theorem lidx_v0 (j : Fin 64) (q : Fin 512) (k : Fin 4096) : lidx_main_v0 (ix2 j q) k = ix2 j k :=
  funext fun a => Fin.ext (by match a with | ⟨0, _⟩ => rfl | ⟨1, _⟩ => rfl)
theorem ridx_v0 (j : Fin 64) (q : Fin 512) (k : Fin 4096) : ridx_main_v0 (ix2 j q) k = ix2 k q :=
  funext fun a => Fin.ext (by match a with | ⟨0, _⟩ => rfl | ⟨1, _⟩ => rfl)
/-- Operand coordinates of `U (·)` at `(p, q)`. -/
theorem lidx_v2 (p : Fin 4096) (q : Fin 512) (k : Fin 64) : lidx_main_v2 (ix2 p q) k = ix2 p k :=
  funext fun a => Fin.ext (by match a with | ⟨0, _⟩ => rfl | ⟨1, _⟩ => rfl)
theorem ridx_v2 (p : Fin 4096) (q : Fin 512) (k : Fin 64) : ridx_main_v2 (ix2 p q) k = ix2 k q :=
  funext fun a => Fin.ext (by match a with | ⟨0, _⟩ => rfl | ⟨1, _⟩ => rfl)
/-- Operand coordinates of `J r` at `(p, q)`. -/
theorem lidx_v3 (p : Fin 4096) (q : Fin 512) (k : Fin 4096) : lidx_main_v3 (ix2 p q) k = ix2 p k :=
  funext fun a => Fin.ext (by match a with | ⟨0, _⟩ => rfl | ⟨1, _⟩ => rfl)
theorem ridx_v3 (p : Fin 4096) (q : Fin 512) (k : Fin 4096) : ridx_main_v3 (ix2 p q) k = ix2 k q :=
  funext fun a => Fin.ext (by match a with | ⟨0, _⟩ => rfl | ⟨1, _⟩ => rfl)
/-- The offset's broadcast reads column 0 of row `p`. -/
theorem idx_v7 (p : Fin 4096) (q : Fin 512) : idx_main_v7 (ix2 p q) = ix2 p (0 : Fin 1) :=
  funext fun a => Fin.ext (by match a with | ⟨0, _⟩ => rfl | ⟨1, _⟩ => rfl)

/-- The gated projection, as the reference computes it. -/
theorem gated_eq (g : Mat 64 512) (r : Mat 4096 512) (V : Mat 64 4096) :
    val_main_v1 (F := Ideal) g r V = gated g r V := by
  funext j
  obtain ⟨a, b, rfl⟩ : ∃ (a : Fin 64) (b : Fin 512), j = ix2 a b := ⟨j 0, j 1, eq_ix2 j⟩
  rw [val_main_v1_apply, val_main_v0_apply]
  simp only [lidx_v0, ridx_v0]
  rfl

/-- The reference's first result is the new state. -/
theorem state_eq (g : Mat 64 512) (x r : Mat 4096 512) (J : Mat 4096 4096) (b : Mat 4096 1) (U : Mat 4096 64) (V : Mat 64 4096) :
    val_main_v11 (F := Ideal) g x r J b U V = stateNew g x r J b U V := by
  funext i
  obtain ⟨p, q, rfl⟩ : ∃ (p : Fin 4096) (q : Fin 512), i = ix2 p q := ⟨i 0, i 1, eq_ix2 i⟩
  rw [val_main_v11_apply, val_main_v10_apply, val_main_v9_apply, val_main_cst_apply, val_main_v8_apply, val_main_v6_apply,
    val_main_v5_apply, val_main_v4_apply, val_main_v2_apply, val_main_v3_apply, val_main_v7_apply, gated_eq]
  simp only [lidx_v2, ridx_v2, lidx_v3, ridx_v3, idx_v7]
  rfl

/-- The reference's second result is the new rates. -/
theorem rate_eq (g : Mat 64 512) (x r : Mat 4096 512) (J : Mat 4096 4096) (b : Mat 4096 1) (U : Mat 4096 64) (V : Mat 64 4096) :
    val_main_v12 (F := Ideal) g x r J b U V = rateNew g x r J b U V := by
  funext i
  rw [val_main_v12_apply, val_main_call0_v4_apply, val_main_call0_v6_apply, val_main_call0_v11_apply, val_main_call0_v1_apply,
    val_main_call0_v10_apply, val_main_call0_v9_apply, val_main_call0_v8_apply, val_main_call0_v7_apply, val_main_call0_v3_apply,
    val_main_call0_v0_apply, val_main_call0_v2_apply, val_main_call0_v5_apply, val_main_call0_cst_apply, state_eq]
  rfl

end Cert.ReferenceIdeal.IsStep

end
-- ==== Proof.lean ====
/-
  One step of a recurrent network with a gated low-rank loop: new state `x + h · (-x + J r + U (g ⊙ V r) + b)` and new
  rates `softplus` of it, over extended reals.

  The kernel program computes the gated projection `g ⊙ V r` in a first call on whole arrays and the update in a second
  call over 16 blocks of 256 neurons; the reference computes the same with three whole matrix products. Entry by entry the
  two agree: a matrix product is the finite sum over the contracted coordinate on both sides, a change of float format is
  the identity, the kernel's `0 - x` is the reference's `-x`, and the kernel adds `J r + U (…)` where the reference adds
  `U (…) + J r` (addition of extended reals commutes). The softplus is spelt operation for operation the same way on both
  sides. No finiteness of the inputs is used.

  Proof/Spec.lean states the step; Proof/RefIsSpec.lean reads the reference's results as the step; Proof/KernelBlocks.lean reads
  the kernel bodies' stored values at an entry; Proof/KernelValue.lean carries the blocks to the result arrays over the run of
  Proof/KernelRun.lean; here the claims are assembled. The idealization rewrote nothing, so `preserves` is `True`.
-/
import proofs.«103957_j9560597201160_1_alg».proof.Defs
import proofs.«103957_j9560597201160_1_alg».proof.Proof.Gen.Kernel
import proofs.«103957_j9560597201160_1_alg».proof.Proof.Gen.Kernel.Skeleton
import proofs.«103957_j9560597201160_1_alg».proof.Proof.Gen.Kernel.Launch
import proofs.«103957_j9560597201160_1_alg».proof.Proof.Gen.Kernel.Points
import proofs.«103957_j9560597201160_1_alg».proof.Proof.Gen.Kernel.Frame
import proofs.«103957_j9560597201160_1_alg».proof.Proof.Gen.KernelIdeal
import proofs.«103957_j9560597201160_1_alg».proof.Proof.Gen.KernelIdeal.Skeleton
import proofs.«103957_j9560597201160_1_alg».proof.Proof.Gen.KernelIdeal.Launch
import proofs.«103957_j9560597201160_1_alg».proof.Proof.Gen.KernelIdeal.Points
import proofs.«103957_j9560597201160_1_alg».proof.Proof.Gen.KernelIdeal.Frame
import proofs.«103957_j9560597201160_1_alg».proof.Proof.Gen.ReferenceIdeal
import proofs.«103957_j9560597201160_1_alg».proof.Proof.Gen.ReferenceIdeal.Run
import proofs.«103957_j9560597201160_1_alg».proof.Proof.Gen.ReferenceIdeal.Read
import proofs.«103957_j9560597201160_1_alg».proof.Proof.Gen.Pre_finite_inputs
import proofs.«103957_j9560597201160_1_alg».proof.Proof.KernelValue
import proofs.«103957_j9560597201160_1_alg».proof.Proof.RefIsSpec
import Idealize.ShloMosaic.Adequacy
import Idealize.ShloMosaic.Init

noncomputable section

namespace Cert.Proof

open Idealize.ShloMosaic Idealize.SL.Sem Cert.RnnStep

/-- The word-level kernel program runs and keeps its arguments. -/
theorem frame_k : Cert.frame_Kernel := fun m ρ _ => Cert.Kernel.Gen.frame m ρ

/-- So does the kernel program read over extended reals. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the new state and the new rates of the arrays they were launched with; launched with the
    same arrays, they end with the same results. -/
theorem algebraic : Cert.algebraic_KernelIdeal_ReferenceIdeal := by
  intro m ρ m' ρ' _ hagree
  refine ⟨_, _, Cert.KernelIdeal.StepValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6⟩ := hagree c
    rw [a0, a1, a2, a3, a4, a5, a6]
    exact (Cert.ReferenceIdeal.Read.val_main_v11_eq _ _ _ _ _ _ _).trans (Cert.ReferenceIdeal.IsStep.state_eq _ _ _ _ _ _ _)
  · obtain ⟨a0, a1, a2, a3, a4, a5, a6⟩ := hagree c
    rw [Cert.ReferenceIdeal.Read.val_main_v12_eq, a0, a1, a2, a3, a4, a5, a6]
    exact Cert.ReferenceIdeal.IsStep.rate_eq _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
